-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S2x16 : Shape := ⟨2, ![2, 16]⟩
abbrev S16x16 : Shape := ⟨2, ![16, 16]⟩
abbrev S16x2 : Shape := ⟨2, ![16, 2]⟩
abbrev S16x1 : Shape := ⟨2, ![16, 1]⟩
abbrev S16 : Shape := ⟨1, ![16]⟩
abbrev S2 : Shape := ⟨1, ![2]⟩
abbrev S1 : Shape := ⟨1, ![1]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S2 : S_.BroadcastsInDim S2 (![] : Fin 0 → Fin S2.rank)
  reducesTo_S2_S_d0 : S2.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S16 .f32) (main_arg12 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S16 .f32) (main_arg8 : FVec F S16 .f32) (main_arg9 : FVec F S2 .f32) (main_arg10 : FVec F S16 .f32) (main_arg11 : FVec F S16 .f32) (main_arg12 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S2x16 .f32) (main_arg5 : FVec F S16x16 .f32) (main_arg6 : FVec F S16x1 .f32) (main_arg7 : FVec F S16 .f32) (main_arg8 : FVec F S16 .f32) (main_arg9 : FVec F S2 .f32) (main_arg10 : FVec F S16 .f32) (main_arg11 : FVec F S16 .f32) (main_arg12 : FVec F S1 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2x16 .f32 := Host.absf main_arg4
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16x1 .f32 := Host.absf main_arg6
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4194304x2 .f32) (main_arg1 : FVec F S2x16 .f32) (main_arg2 : FVec F S16x16 .f32) (main_arg3 : FVec F S16x2 .f32) (main_arg4 : FVec F S2x16 .f32) (main_arg5 : FVec F S16x16 .f32) (main_arg6 : FVec F S16x1 .f32) (main_arg7 : FVec F S16 .f32) (main_arg8 : FVec F S16 .f32) (main_arg9 : FVec F S2 .f32) (main_arg10 : FVec F S16 .f32) (main_arg11 : FVec F S16 .f32) (main_arg12 : FVec F S1 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S2x16 .f32 := Host.absf main_arg1
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_arg5 main_arg6 main_arg7 main_arg8 main_arg9 main_arg10 main_arg11 main_arg12 main_v13 main_v16
-- ==== Kernel.lean ====
abbrev S4194304x2 : Shape := ⟨2, ![4194304, 2]⟩
abbrev S2x16 : Shape := ⟨2, ![2, 16]⟩
abbrev S16x16 : Shape := ⟨2, ![16, 16]⟩
abbrev S16x2 : Shape := ⟨2, ![16, 2]⟩
abbrev S16x1 : Shape := ⟨2, ![16, 1]⟩
abbrev S16 : Shape := ⟨1, ![16]⟩
abbrev S2 : Shape := ⟨1, ![2]⟩
abbrev S1 : Shape := ⟨1, ![1]⟩
abbrev S16384x2 : Shape := ⟨2, ![16384, 2]⟩
abbrev S16384x16 : Shape := ⟨2, ![16384, 16]⟩
abbrev S1x16 : Shape := ⟨2, ![1, 16]⟩
abbrev S1x2 : Shape := ⟨2, ![1, 2]⟩
abbrev S16384x1 : Shape := ⟨2, ![16384, 1]⟩
abbrev S1x1 : Shape := ⟨2, ![1, 1]⟩

abbrev nBuf : Space → Nat
  | .hbm => 14
  | .vmem => 16
  | .smem => 0
  | _ => 0

abbrev bufTy : (tb : Table) → Fin (tcTables nBuf tb) → BufTy
  | .hbm, ⟨0, _⟩ => ⟨S4194304x2, .f32⟩
  | .hbm, ⟨1, _⟩ => ⟨S2x16, .f32⟩
  | .hbm, ⟨2, _⟩ => ⟨S16x16, .f32⟩
  | .hbm, ⟨3, _⟩ => ⟨S16x2, .f32⟩
  | .hbm, ⟨4, _⟩ => ⟨S2x16, .f32⟩
  | .hbm, ⟨5, _⟩ => ⟨S16x16, .f32⟩
  | .hbm, ⟨6, _⟩ => ⟨S16x1, .f32⟩
  | .hbm, ⟨7, _⟩ => ⟨S16, .f32⟩
  | .hbm, ⟨8, _⟩ => ⟨S16, .f32⟩
  | .hbm, ⟨9, _⟩ => ⟨S2, .f32⟩
  | .hbm, ⟨10, _⟩ => ⟨S16, .f32⟩
  | .hbm, ⟨11, _⟩ => ⟨S16, .f32⟩
  | .hbm, ⟨12, _⟩ => ⟨S1, .f32⟩
  | .hbm, ⟨13, _⟩ => ⟨S4194304x2, .f32⟩
  | .local _ .vmem, ⟨0, _⟩ => ⟨S16384x2, .f32⟩
  | .local _ .vmem, ⟨1, _⟩ => ⟨S16384x2, .f32⟩
  | .local _ .vmem, ⟨2, _⟩ => ⟨S2x16, .f32⟩
  | .local _ .vmem, ⟨3, _⟩ => ⟨S16x16, .f32⟩
  | .local _ .vmem, ⟨4, _⟩ => ⟨S16x2, .f32⟩
  | .local _ .vmem, ⟨5, _⟩ => ⟨S2x16, .f32⟩
  | .local _ .vmem, ⟨6, _⟩ => ⟨S16x16, .f32⟩
  | .local _ .vmem, ⟨7, _⟩ => ⟨S16x1, .f32⟩
  | .local _ .vmem, ⟨8, _⟩ => ⟨S16, .f32⟩
  | .local _ .vmem, ⟨9, _⟩ => ⟨S16, .f32⟩
  | .local _ .vmem, ⟨10, _⟩ => ⟨S2, .f32⟩
  | .local _ .vmem, ⟨11, _⟩ => ⟨S16, .f32⟩
  | .local _ .vmem, ⟨12, _⟩ => ⟨S16, .f32⟩
  | .local _ .vmem, ⟨13, _⟩ => ⟨S1, .f32⟩
  | .local _ .vmem, ⟨14, _⟩ => ⟨S16384x2, .f32⟩
  | .local _ .vmem, ⟨15, _⟩ => ⟨S16384x2, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16384x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S16384x2_S16384x2_0_0 : ∀ a, (![0, 0] : Fin 2 → Nat) a + S16384x2.size a ≤ S16384x2.size a
  h_S16384x2 : 0 < S16384x2.numel
  inb_S2x16_S2x16_0_0 : ∀ a, (![0, 0] : Fin 2 → Nat) a + S2x16.size a ≤ S2x16.size a
  h_S2x16 : 0 < S2x16.numel
  inb_S16_S16_0 : ∀ a, (![0] : Fin 1 → Nat) a + S16.size a ≤ S16.size a
  h_S16 : 0 < S16.numel
  shapeCasts_S16_S1x16 : S16.ShapeCasts S1x16
  broadcasts_S1x16_S16384x16 : S1x16.Broadcasts S16384x16
  inb_S16x16_S16x16_0_0 : ∀ a, (![0, 0] : Fin 2 → Nat) a + S16x16.size a ≤ S16x16.size a
  h_S16x16 : 0 < S16x16.numel
  inb_S16x2_S16x2_0_0 : ∀ a, (![0, 0] : Fin 2 → Nat) a + S16x2.size a ≤ S16x2.size a
  h_S16x2 : 0 < S16x2.numel
  inb_S2_S2_0 : ∀ a, (![0] : Fin 1 → Nat) a + S2.size a ≤ S2.size a
  h_S2 : 0 < S2.numel
  shapeCasts_S2_S1x2 : S2.ShapeCasts S1x2
  broadcasts_S1x2_S16384x2 : S1x2.Broadcasts S16384x2
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  slices_S16384x2_o0_0_S16384x1 : S16384x2.Slices ![0, 0] S16384x1
  slices_S16384x2_o0_1_S16384x1 : S16384x2.Slices ![0, 1] S16384x1
  concatenates_S16384x1_S16384x1_S16384x2_d1 : Shape.Concatenates [S16384x1, S16384x1] S16384x2 1
  dot_S16384x2_S2x16_S16384x16_1_0_0_1_n_n_wf : DotDims.WF S16384x2 S2x16 S16384x16 [1] [0] [0] [1] [] []
  dot_S16384x16_S16x16_S16384x16_1_0_0_1_n_n_wf : DotDims.WF S16384x16 S16x16 S16384x16 [1] [0] [0] [1] [] []
  dot_S16384x16_S16x2_S16384x2_1_0_0_1_n_n_wf : DotDims.WF S16384x16 S16x2 S16384x2 [1] [0] [0] [1] [] []
  dot_S16384x16_S16x1_S16384x1_1_0_0_1_n_n_wf : DotDims.WF S16384x16 S16x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S4194304x2.size a
  hwx0_0 : ∀ i : grid0.Coords, EltTy.bits .f32 = 32 ∨ (Rect.block (s := S4194304x2) S16384x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S16x2.size a
  hwx0_3 : ∀ i : grid0.Coords, EltTy.bits .f32 = 32 ∨ (Rect.block (s := S16x2) S16x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x16.size a ≤ S2x16.size a
  hwx0_4 : ∀ i : grid0.Coords, EltTy.bits .f32 = 32 ∨ (Rect.block (s := S2x16) S2x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16.size a ≤ S16.size a
  hwx0_11 : ∀ i : grid0.Coords, EltTy.bits .f32 = 32 ∨ (Rect.block (s := S16) S16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16384x2.size a ≤ S4194304x2.size a
  hwx0_13 : ∀ i : grid0.Coords, EltTy.bits .f32 = 32 ∨ (Rect.block (s := S4194304x2) S16384x2.size (cc0_transform_13 i) (hinb0_13 i)).WholeWords (EltTy.packing .f32)

variable [Facts₀]

def dot_S16384x2_S2x16_S16384x16_1_0_0_1_n_n : DotDims S16384x2 S2x16 S16384x16 where
  lhsContracting := [1]
  rhsContracting := [0]
  lhsNonContracting := [0]
  rhsNonContracting := [1]
  lhsBatch := []
  rhsBatch := []
  wf := dot_S16384x2_S2x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x2_S16384x2_1_0_0_1_n_n : DotDims S16384x16 S16x2 S16384x2 where
  lhsContracting := [1]
  rhsContracting := [0]
  lhsNonContracting := [0]
  rhsNonContracting := [1]
  lhsBatch := []
  rhsBatch := []
  wf := dot_S16384x16_S16x2_S16384x2_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

abbrev win0_0 : Pipeline.Window sig grid0 :=
  Pipeline.Window.ofSpec (Memref.whole main_arg0) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S16384x2.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S2x16 : Shape := ⟨2, ![2, 16]⟩
abbrev S16x16 : Shape := ⟨2, ![16, 16]⟩
abbrev S16x2 : Shape := ⟨2, ![16, 2]⟩
abbrev S16x1 : Shape := ⟨2, ![16, 1]⟩
abbrev S16 : Shape := ⟨1, ![16]⟩
abbrev S2 : Shape := ⟨1, ![2]⟩
abbrev S1 : Shape := ⟨1, ![1]⟩
abbrev S4194304x16 : Shape := ⟨2, ![4194304, 16]⟩
abbrev S1x16 : Shape := ⟨2, ![1, 16]⟩
abbrev S1x2 : Shape := ⟨2, ![1, 2]⟩
abbrev S_ : Shape := ⟨0, ![]⟩
abbrev S4194304x1 : Shape := ⟨2, ![4194304, 1]⟩
abbrev S1x1 : Shape := ⟨2, ![1, 1]⟩
abbrev S4194304 : Shape := ⟨1, ![4194304]⟩

abbrev nBuf : Space → Nat
  | .hbm => 73
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S2x16, .f32⟩
  | .hbm, ⟨2, _⟩ => ⟨S16x16, .f32⟩
  | .hbm, ⟨3, _⟩ => ⟨S16x2, .f32⟩
  | .hbm, ⟨4, _⟩ => ⟨S2x16, .f32⟩
  | .hbm, ⟨5, _⟩ => ⟨S16x16, .f32⟩
  | .hbm, ⟨6, _⟩ => ⟨S16x1, .f32⟩
  | .hbm, ⟨7, _⟩ => ⟨S16, .f32⟩
  | .hbm, ⟨8, _⟩ => ⟨S16, .f32⟩
  | .hbm, ⟨9, _⟩ => ⟨S2, .f32⟩
  | .hbm, ⟨10, _⟩ => ⟨S16, .f32⟩
  | .hbm, ⟨11, _⟩ => ⟨S16, .f32⟩
  | .hbm, ⟨12, _⟩ => ⟨S1, .f32⟩
  | .hbm, ⟨13, _⟩ => ⟨S2, .f32⟩
  | .hbm, ⟨14, _⟩ => ⟨S4194304x16, .f32⟩
  | .hbm, ⟨15, _⟩ => ⟨S1x16, .f32⟩
  | .hbm, ⟨16, _⟩ => ⟨S4194304x16, .f32⟩
  | .hbm, ⟨17, _⟩ => ⟨S4194304x16, .f32⟩
  | .hbm, ⟨18, _⟩ => ⟨S4194304x16, .f32⟩
  | .hbm, ⟨19, _⟩ => ⟨S4194304x16, .f32⟩
  | .hbm, ⟨20, _⟩ => ⟨S1x16, .f32⟩
  | .hbm, ⟨21, _⟩ => ⟨S4194304x16, .f32⟩
  | .hbm, ⟨22, _⟩ => ⟨S4194304x16, .f32⟩
  | .hbm, ⟨23, _⟩ => ⟨S4194304x16, .f32⟩
  | .hbm, ⟨24, _⟩ => ⟨S4194304x2, .f32⟩
  | .hbm, ⟨25, _⟩ => ⟨S1x2, .f32⟩
  | .hbm, ⟨26, _⟩ => ⟨S4194304x2, .f32⟩
  | .hbm, ⟨27, _⟩ => ⟨S4194304x2, .f32⟩
  | .hbm, ⟨28, _⟩ => ⟨S_, .f32⟩
  | .hbm, ⟨29, _⟩ => ⟨S4194304x2, .f32⟩
  | .hbm, ⟨30, _⟩ => ⟨S4194304x2, .f32⟩
  | .hbm, ⟨31, _⟩ => ⟨S1x2, .f32⟩
  | .hbm, ⟨32, _⟩ => ⟨S4194304x2, .f32⟩
  | .hbm, ⟨33, _⟩ => ⟨S4194304x2, .f32⟩
  | .hbm, ⟨34, _⟩ => ⟨S4194304x2, .f32⟩
  | .hbm, ⟨35, _⟩ => ⟨S4194304x16, .f32⟩
  | .hbm, ⟨36, _⟩ => ⟨S1x16, .f32⟩
  | .hbm, ⟨37, _⟩ => ⟨S4194304x16, .f32⟩
  | .hbm, ⟨38, _⟩ => ⟨S4194304x16, .f32⟩
  | .hbm, ⟨39, _⟩ => ⟨S4194304x16, .f32⟩
  | .hbm, ⟨40, _⟩ => ⟨S4194304x16, .f32⟩
  | .hbm, ⟨41, _⟩ => ⟨S1x16, .f32⟩
  | .hbm, ⟨42, _⟩ => ⟨S4194304x16, .f32⟩
  | .hbm, ⟨43, _⟩ => ⟨S4194304x16, .f32⟩
  | .hbm, ⟨44, _⟩ => ⟨S4194304x16, .f32⟩
  | .hbm, ⟨45, _⟩ => ⟨S4194304x1, .f32⟩
  | .hbm, ⟨46, _⟩ => ⟨S1x1, .f32⟩
  | .hbm, ⟨47, _⟩ => ⟨S4194304x1, .f32⟩
  | .hbm, ⟨48, _⟩ => ⟨S4194304x1, .f32⟩
  | .hbm, ⟨49, _⟩ => ⟨S4194304x1, .f32⟩
  | .hbm, ⟨50, _⟩ => ⟨S4194304, .f32⟩
  | .hbm, ⟨51, _⟩ => ⟨S4194304x1, .f32⟩
  | .hbm, ⟨52, _⟩ => ⟨S4194304, .f32⟩
  | .hbm, ⟨53, _⟩ => ⟨S4194304, .f32⟩
  | .hbm, ⟨54, _⟩ => ⟨S4194304x1, .f32⟩
  | .hbm, ⟨55, _⟩ => ⟨S4194304, .f32⟩
  | .hbm, ⟨56, _⟩ => ⟨S4194304x1, .f32⟩
  | .hbm, ⟨57, _⟩ => ⟨S4194304, .f32⟩
  | .hbm, ⟨58, _⟩ => ⟨S4194304, .f32⟩
  | .hbm, ⟨59, _⟩ => ⟨S4194304, .f32⟩
  | .hbm, ⟨60, _⟩ => ⟨S4194304, .f32⟩
  | .hbm, ⟨61, _⟩ => ⟨S4194304, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S4194304, .f32⟩
  | .hbm, ⟨66, _⟩ => ⟨S4194304, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S4194304x1, .f32⟩
  | .hbm, ⟨71, _⟩ => ⟨S4194304x1, .f32⟩
  | .hbm, ⟨72, _⟩ => ⟨S4194304x2, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  bcast_S_S4194304x2 : S_.BroadcastsInDim S4194304x2 (![] : Fin 0 → Fin S4194304x2.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  dot_S4194304x2_S2x16_S4194304x16_1_0_0_1_n_n_wf : DotDims.WF S4194304x2 S2x16 S4194304x16 [1] [0] [0] [1] [] []
  dot_S4194304x16_S16x16_S4194304x16_1_0_0_1_n_n_wf : DotDims.WF S4194304x16 S16x16 S4194304x16 [1] [0] [0] [1] [] []
  dot_S4194304x16_S16x2_S4194304x2_1_0_0_1_n_n_wf : DotDims.WF S4194304x16 S16x2 S4194304x2 [1] [0] [0] [1] [] []
  dot_S4194304x16_S16x1_S4194304x1_1_0_0_1_n_n_wf : DotDims.WF S4194304x16 S16x1 S4194304x1 [1] [0] [0] [1] [] []

variable [Facts₀]

def dot_S4194304x2_S2x16_S4194304x16_1_0_0_1_n_n : DotDims S4194304x2 S2x16 S4194304x16 where
  lhsContracting := [1]
  rhsContracting := [0]
  lhsNonContracting := [0]
  rhsNonContracting := [1]
  lhsBatch := []
  rhsBatch := []
  wf := dot_S4194304x2_S2x16_S4194304x16_1_0_0_1_n_n_wf
def dot_S4194304x16_S16x16_S4194304x16_1_0_0_1_n_n : DotDims S4194304x16 S16x16 S4194304x16 where
  lhsContracting := [1]
  rhsContracting := [0]
  lhsNonContracting := [0]
  rhsNonContracting := [1]
  lhsBatch := []
  rhsBatch := []
  wf := dot_S4194304x16_S16x16_S4194304x16_1_0_0_1_n_n_wf
def dot_S4194304x16_S16x2_S4194304x2_1_0_0_1_n_n : DotDims S4194304x16 S16x2 S4194304x2 where
  lhsContracting := [1]
  rhsContracting := [0]
  lhsNonContracting := [0]
  rhsNonContracting := [1]
  lhsBatch := []
  rhsBatch := []
  wf := dot_S4194304x16_S16x2_S4194304x2_1_0_0_1_n_n_wf
def dot_S4194304x16_S16x1_S4194304x1_1_0_0_1_n_n : DotDims S4194304x16 S16x1 S4194304x1 where
  lhsContracting := [1]
  rhsContracting := [0]
  lhsNonContracting := [0]
  rhsNonContracting := [1]
  lhsBatch := []
  rhsBatch := []
  wf := dot_S4194304x16_S16x1_S4194304x1_1_0_0_1_n_n_wf

class Facts : Prop extends Facts₀ where

variable [Facts]
-- ==== Proof.RowMap.lean ====
/-
  The function both programs compute, one row at a time.

  A row `xr = (x₀, x₁)` of the input goes through two small perceptrons that share nothing but the row:
  the "diagonal" one, 2 → 16 → 16 → 2 with tanh after the first two affine maps, whose two outputs are clipped
  below at zero, shifted by the constant 1/1000 as float32 writes it, and multiplied by the row itself, giving
  `a` and `b`; and the "off-diagonal" one, 2 → 16 → 16 → 1 with the same activations, giving `c`. The row of the
  result is the product of the lower-triangular `L = [[a, 0], [c, b]]` with its transpose, applied to the row:
    out₀ = (a·a)·x₀ + (a·c)·x₁,   out₁ = (a·c)·x₀ + (c·c + b·b)·x₁.
  Every operation is the exact one on the extended reals, in the order and grouping written here, which is the
  order and grouping of both programs; no law of arithmetic is needed to compare them, only the reading of each
  matrix product as a finite sum over the contracted coordinate.
-/
import Idealize.ShloMosaic.PureOps.Ideal
import Idealize.ShloMosaic.Lib.ValueIdx

noncomputable section

namespace Cert.RowMap

open Idealize.ShloMosaic Idealize.ShloMosaic.ValueIdx

/-- A matrix and a vector of extended reals over literal extents. -/
abbrev Mat (a b : Nat) : Type := FVec Ideal ⟨2, ![a, b]⟩ .f32
abbrev Vect (a : Nat) : Type := FVec Ideal ⟨1, ![a]⟩ .f32

/-- One affine map of a row: `(∑ₖ xr k · w[k, j]) + b[j]`. -/
def affine {K M : Nat} (xr : Fin K → EReal) (w : Mat K M) (b : Vect M) (j : Fin M) : EReal :=
  (∑ k : Fin K, xr k * w (ix2 k j)) + b (ix1 j)

/-- An affine map followed by tanh. -/
def layer {K M : Nat} (xr : Fin K → EReal) (w : Mat K M) (b : Vect M) (j : Fin M) : EReal :=
  Ideal.tanh (affine xr w b j)

/-- The weights and biases of the two perceptrons. -/
structure Params where
  w_d1 : Mat 2 16
  w_d2 : Mat 16 16
  w_d3 : Mat 16 2
  w_o1 : Mat 2 16
  w_o2 : Mat 16 16
  w_o3 : Mat 16 1
  b_d1 : Vect 16
  b_d2 : Vect 16
  b_d3 : Vect 2
  b_o1 : Vect 16
  b_o2 : Vect 16
  b_o3 : Vect 1

/-- The diagonal branch before the clip: the third affine map of the 2 → 16 → 16 → 2 perceptron. -/
def diagPre (P : Params) (xr : Fin 2 → EReal) (j : Fin 2) : EReal :=
  affine (layer (layer xr P.w_d1 P.b_d1) P.w_d2 P.b_d2) P.w_d3 P.b_d3 j

/-- The diagonal entries of `L`: clip at zero, add float32's 1/1000, multiply by the row's own entry. -/
def diag (P : Params) (xr : Fin 2 → EReal) (j : Fin 2) : EReal :=
  (max (diagPre P xr j) (Ideal.ofBits .f32 0x00000000#32) + Ideal.ofBits .f32 0x3A83126F#32) * xr j

/-- The off-diagonal entry of `L`: the 2 → 16 → 16 → 1 perceptron's one output. -/
def off (P : Params) (xr : Fin 2 → EReal) : EReal :=
  affine (layer (layer xr P.w_o1 P.b_o1) P.w_o2 P.b_o2) P.w_o3 P.b_o3 0

/-- First entry of `(L Lᵀ) xr`. -/
def out0 (P : Params) (xr : Fin 2 → EReal) : EReal :=
  diag P xr 0 * diag P xr 0 * xr 0 + diag P xr 0 * off P xr * xr 1

/-- Second entry of `(L Lᵀ) xr`. -/
def out1 (P : Params) (xr : Fin 2 → EReal) : EReal :=
  diag P xr 0 * off P xr * xr 0 + (off P xr * off P xr + diag P xr 1 * diag P xr 1) * xr 1

/-- The row of the result. -/
def outRow (P : Params) (xr : Fin 2 → EReal) (q : Fin 2) : EReal :=
  if q.val = 0 then out0 P xr else out1 P xr

/-- Row `p` of an `N × 2` array. -/
def rowOf {N : Nat} (x : Mat N 2) (p : Fin N) : Fin 2 → EReal := fun k => x (ix2 p k)

/-- The whole result: every row of `x` through `outRow`. -/
def result {N : Nat} (P : Params) (x : Mat N 2) : Mat N 2 := fun i => outRow P (rowOf x (i 0)) (i 1)

theorem result_apply {N : Nat} (P : Params) (x : Mat N 2) (p : Fin N) (q : Fin 2) :
    result P x (ix2 p q) = outRow P (rowOf x p) q := rfl

end Cert.RowMap

end
-- ==== Proof.KernelRows.lean ====
/-
  The kernel's body on one block of 16384 rows, read one row at a time.

  The body loads the block of `x` and the twelve small parameter arrays whole, and computes its stored value with
  four kinds of matrix product into a zero accumulator (2 → 16, 16 → 16, 16 → 2, 16 → 1), biases broadcast along
  the rows, tanh, max, +, ·, two column slices of width one and a concatenation of two columns. Each of these is
  row-local, so the stored block at `(p, q)` is `Cert.RowMap.outRow` of row `p` of the loaded block at `q`.
-/
import proofs.«138228_j27066883900008_1_alg».proof.Proof.Gen.KernelIdeal.Skeleton
import proofs.«138228_j27066883900008_1_alg».proof.Proof.RowMap
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowPay

open Cert.KernelIdeal Cert.KernelIdeal.Gen Idealize.ShloMosaic Idealize.ShloMosaic.ValueIdx Cert.RowMap

/-! ## The four matrix products at an entry -/

/-! ### rows of length 2 into 16 columns -/

theorem lhsA_0 (i : S16384x16.Idx) (q : dot_S16384x2_S2x16_S16384x16_1_0_0_1_n_n.contr.Idx) :
    (dot_S16384x2_S2x16_S16384x16_1_0_0_1_n_n.lhsIdx i q 0).val = (i 0).val := by
  unfold DotDims.lhsIdx
  rw [dif_neg (show ¬(0 : Fin S16384x2.rank) ∈ dot_S16384x2_S2x16_S16384x16_1_0_0_1_n_n.lhsBatch by decide), dif_pos (show (0 : Fin S16384x2.rank) ∈ dot_S16384x2_S2x16_S16384x16_1_0_0_1_n_n.lhsNonContracting by decide)]
  rfl
theorem lhsA_1 (i : S16384x16.Idx) (q : dot_S16384x2_S2x16_S16384x16_1_0_0_1_n_n.contr.Idx) :
    (dot_S16384x2_S2x16_S16384x16_1_0_0_1_n_n.lhsIdx i q 1).val = (q ⟨0, by decide⟩).val :=
  dot_S16384x2_S2x16_S16384x16_1_0_0_1_n_n.lhsIdx_val_of_single rfl i q
theorem rhsA_0 (i : S16384x16.Idx) (q : dot_S16384x2_S2x16_S16384x16_1_0_0_1_n_n.contr.Idx) :
    (dot_S16384x2_S2x16_S16384x16_1_0_0_1_n_n.rhsIdx i q 0).val = (q ⟨0, by decide⟩).val :=
  dot_S16384x2_S2x16_S16384x16_1_0_0_1_n_n.rhsIdx_val_of_single rfl i q
theorem rhsA_1 (i : S16384x16.Idx) (q : dot_S16384x2_S2x16_S16384x16_1_0_0_1_n_n.contr.Idx) :
    (dot_S16384x2_S2x16_S16384x16_1_0_0_1_n_n.rhsIdx i q 1).val = (i 1).val := by
  unfold DotDims.rhsIdx
  rw [dif_neg (show ¬(1 : Fin S2x16.rank) ∈ dot_S16384x2_S2x16_S16384x16_1_0_0_1_n_n.rhsBatch by decide), dif_pos (show (1 : Fin S2x16.rank) ∈ dot_S16384x2_S2x16_S16384x16_1_0_0_1_n_n.rhsNonContracting by decide)]
  rfl

/-- The product into a zero accumulator, at row `p` and column `j`: the sum over the 2 contracted coordinates. -/
theorem mmA (l : FVec Ideal S16384x2 .f32) (r : FVec Ideal S2x16 .f32) (p : Fin 16384) (j : Fin 16) :
    matmul dot_S16384x2_S2x16_S16384x16_1_0_0_1_n_n none l r (constant (F := Ideal) S16384x16 .f32 0x00000000#32) (ix2 p j)
      = ∑ k : Fin 2, l (ix2 p k) * r (ix2 k j) := by
  simp only [matmul]
  rw [Ideal.matmul_constant_zero_apply, ← Equiv.sum_comp (contrEquiv1 dot_S16384x2_S2x16_S16384x16_1_0_0_1_n_n 2 rfl rfl).symm]
  refine Finset.sum_congr rfl fun k _ => ?_
  have hk := contrEquiv1_symm_val dot_S16384x2_S2x16_S16384x16_1_0_0_1_n_n 2 rfl rfl k
  have el : dot_S16384x2_S2x16_S16384x16_1_0_0_1_n_n.lhsIdx (ix2 p j) ((contrEquiv1 dot_S16384x2_S2x16_S16384x16_1_0_0_1_n_n 2 rfl rfl).symm k) = ix2 p k := funext fun a => Fin.ext (by
    match a with
    | ⟨0, _⟩ => exact lhsA_0 _ _
    | ⟨1, _⟩ => exact (lhsA_1 _ _).trans hk)
  have er : dot_S16384x2_S2x16_S16384x16_1_0_0_1_n_n.rhsIdx (ix2 p j) ((contrEquiv1 dot_S16384x2_S2x16_S16384x16_1_0_0_1_n_n 2 rfl rfl).symm k) = ix2 k j := funext fun a => Fin.ext (by
    match a with
    | ⟨0, _⟩ => exact (rhsA_0 _ _).trans hk
    | ⟨1, _⟩ => exact rhsA_1 _ _)
  rw [el, er]

/-! ### rows of length 16 into 16 columns -/

theorem lhsB_0 (i : S16384x16.Idx) (q : dot_S16384x16_S16x16_S16384x16_1_0_0_1_n_n.contr.Idx) :
    (dot_S16384x16_S16x16_S16384x16_1_0_0_1_n_n.lhsIdx i q 0).val = (i 0).val := by
  unfold DotDims.lhsIdx
  rw [dif_neg (show ¬(0 : Fin S16384x16.rank) ∈ dot_S16384x16_S16x16_S16384x16_1_0_0_1_n_n.lhsBatch by decide), dif_pos (show (0 : Fin S16384x16.rank) ∈ dot_S16384x16_S16x16_S16384x16_1_0_0_1_n_n.lhsNonContracting by decide)]
  rfl
theorem lhsB_1 (i : S16384x16.Idx) (q : dot_S16384x16_S16x16_S16384x16_1_0_0_1_n_n.contr.Idx) :
    (dot_S16384x16_S16x16_S16384x16_1_0_0_1_n_n.lhsIdx i q 1).val = (q ⟨0, by decide⟩).val :=
  dot_S16384x16_S16x16_S16384x16_1_0_0_1_n_n.lhsIdx_val_of_single rfl i q
theorem rhsB_0 (i : S16384x16.Idx) (q : dot_S16384x16_S16x16_S16384x16_1_0_0_1_n_n.contr.Idx) :
    (dot_S16384x16_S16x16_S16384x16_1_0_0_1_n_n.rhsIdx i q 0).val = (q ⟨0, by decide⟩).val :=
  dot_S16384x16_S16x16_S16384x16_1_0_0_1_n_n.rhsIdx_val_of_single rfl i q
theorem rhsB_1 (i : S16384x16.Idx) (q : dot_S16384x16_S16x16_S16384x16_1_0_0_1_n_n.contr.Idx) :
    (dot_S16384x16_S16x16_S16384x16_1_0_0_1_n_n.rhsIdx i q 1).val = (i 1).val := by
  unfold DotDims.rhsIdx
  rw [dif_neg (show ¬(1 : Fin S16x16.rank) ∈ dot_S16384x16_S16x16_S16384x16_1_0_0_1_n_n.rhsBatch by decide), dif_pos (show (1 : Fin S16x16.rank) ∈ dot_S16384x16_S16x16_S16384x16_1_0_0_1_n_n.rhsNonContracting by decide)]
  rfl

/-- The product into a zero accumulator, at row `p` and column `j`: the sum over the 16 contracted coordinates. -/
theorem mmB (l : FVec Ideal S16384x16 .f32) (r : FVec Ideal S16x16 .f32) (p : Fin 16384) (j : Fin 16) :
    matmul dot_S16384x16_S16x16_S16384x16_1_0_0_1_n_n none l r (constant (F := Ideal) S16384x16 .f32 0x00000000#32) (ix2 p j)
      = ∑ k : Fin 16, l (ix2 p k) * r (ix2 k j) := by
  simp only [matmul]
  rw [Ideal.matmul_constant_zero_apply, ← Equiv.sum_comp (contrEquiv1 dot_S16384x16_S16x16_S16384x16_1_0_0_1_n_n 16 rfl rfl).symm]
  refine Finset.sum_congr rfl fun k _ => ?_
  have hk := contrEquiv1_symm_val dot_S16384x16_S16x16_S16384x16_1_0_0_1_n_n 16 rfl rfl k
  have el : dot_S16384x16_S16x16_S16384x16_1_0_0_1_n_n.lhsIdx (ix2 p j) ((contrEquiv1 dot_S16384x16_S16x16_S16384x16_1_0_0_1_n_n 16 rfl rfl).symm k) = ix2 p k := funext fun a => Fin.ext (by
    match a with
    | ⟨0, _⟩ => exact lhsB_0 _ _
    | ⟨1, _⟩ => exact (lhsB_1 _ _).trans hk)
  have er : dot_S16384x16_S16x16_S16384x16_1_0_0_1_n_n.rhsIdx (ix2 p j) ((contrEquiv1 dot_S16384x16_S16x16_S16384x16_1_0_0_1_n_n 16 rfl rfl).symm k) = ix2 k j := funext fun a => Fin.ext (by
    match a with
    | ⟨0, _⟩ => exact (rhsB_0 _ _).trans hk
    | ⟨1, _⟩ => exact rhsB_1 _ _)
  rw [el, er]

/-! ### rows of length 16 into 2 columns -/

theorem lhsC_0 (i : S16384x2.Idx) (q : dot_S16384x16_S16x2_S16384x2_1_0_0_1_n_n.contr.Idx) :
    (dot_S16384x16_S16x2_S16384x2_1_0_0_1_n_n.lhsIdx i q 0).val = (i 0).val := by
  unfold DotDims.lhsIdx
  rw [dif_neg (show ¬(0 : Fin S16384x16.rank) ∈ dot_S16384x16_S16x2_S16384x2_1_0_0_1_n_n.lhsBatch by decide), dif_pos (show (0 : Fin S16384x16.rank) ∈ dot_S16384x16_S16x2_S16384x2_1_0_0_1_n_n.lhsNonContracting by decide)]
  rfl
theorem lhsC_1 (i : S16384x2.Idx) (q : dot_S16384x16_S16x2_S16384x2_1_0_0_1_n_n.contr.Idx) :
    (dot_S16384x16_S16x2_S16384x2_1_0_0_1_n_n.lhsIdx i q 1).val = (q ⟨0, by decide⟩).val :=
  dot_S16384x16_S16x2_S16384x2_1_0_0_1_n_n.lhsIdx_val_of_single rfl i q
theorem rhsC_0 (i : S16384x2.Idx) (q : dot_S16384x16_S16x2_S16384x2_1_0_0_1_n_n.contr.Idx) :
    (dot_S16384x16_S16x2_S16384x2_1_0_0_1_n_n.rhsIdx i q 0).val = (q ⟨0, by decide⟩).val :=
  dot_S16384x16_S16x2_S16384x2_1_0_0_1_n_n.rhsIdx_val_of_single rfl i q
theorem rhsC_1 (i : S16384x2.Idx) (q : dot_S16384x16_S16x2_S16384x2_1_0_0_1_n_n.contr.Idx) :
    (dot_S16384x16_S16x2_S16384x2_1_0_0_1_n_n.rhsIdx i q 1).val = (i 1).val := by
  unfold DotDims.rhsIdx
  rw [dif_neg (show ¬(1 : Fin S16x2.rank) ∈ dot_S16384x16_S16x2_S16384x2_1_0_0_1_n_n.rhsBatch by decide), dif_pos (show (1 : Fin S16x2.rank) ∈ dot_S16384x16_S16x2_S16384x2_1_0_0_1_n_n.rhsNonContracting by decide)]
  rfl

/-- The product into a zero accumulator, at row `p` and column `j`: the sum over the 16 contracted coordinates. -/
theorem mmC (l : FVec Ideal S16384x16 .f32) (r : FVec Ideal S16x2 .f32) (p : Fin 16384) (j : Fin 2) :
    matmul dot_S16384x16_S16x2_S16384x2_1_0_0_1_n_n none l r (constant (F := Ideal) S16384x2 .f32 0x00000000#32) (ix2 p j)
      = ∑ k : Fin 16, l (ix2 p k) * r (ix2 k j) := by
  simp only [matmul]
  rw [Ideal.matmul_constant_zero_apply, ← Equiv.sum_comp (contrEquiv1 dot_S16384x16_S16x2_S16384x2_1_0_0_1_n_n 16 rfl rfl).symm]
  refine Finset.sum_congr rfl fun k _ => ?_
  have hk := contrEquiv1_symm_val dot_S16384x16_S16x2_S16384x2_1_0_0_1_n_n 16 rfl rfl k
  have el : dot_S16384x16_S16x2_S16384x2_1_0_0_1_n_n.lhsIdx (ix2 p j) ((contrEquiv1 dot_S16384x16_S16x2_S16384x2_1_0_0_1_n_n 16 rfl rfl).symm k) = ix2 p k := funext fun a => Fin.ext (by
    match a with
    | ⟨0, _⟩ => exact lhsC_0 _ _
    | ⟨1, _⟩ => exact (lhsC_1 _ _).trans hk)
  have er : dot_S16384x16_S16x2_S16384x2_1_0_0_1_n_n.rhsIdx (ix2 p j) ((contrEquiv1 dot_S16384x16_S16x2_S16384x2_1_0_0_1_n_n 16 rfl rfl).symm k) = ix2 k j := funext fun a => Fin.ext (by
    match a with
    | ⟨0, _⟩ => exact (rhsC_0 _ _).trans hk
    | ⟨1, _⟩ => exact rhsC_1 _ _)
  rw [el, er]

/-! ### rows of length 16 into 1 column -/

theorem lhsD_0 (i : S16384x1.Idx) (q : dot_S16384x16_S16x1_S16384x1_1_0_0_1_n_n.contr.Idx) :
    (dot_S16384x16_S16x1_S16384x1_1_0_0_1_n_n.lhsIdx i q 0).val = (i 0).val := by
  unfold DotDims.lhsIdx
  rw [dif_neg (show ¬(0 : Fin S16384x16.rank) ∈ dot_S16384x16_S16x1_S16384x1_1_0_0_1_n_n.lhsBatch by decide), dif_pos (show (0 : Fin S16384x16.rank) ∈ dot_S16384x16_S16x1_S16384x1_1_0_0_1_n_n.lhsNonContracting by decide)]
  rfl
theorem lhsD_1 (i : S16384x1.Idx) (q : dot_S16384x16_S16x1_S16384x1_1_0_0_1_n_n.contr.Idx) :
    (dot_S16384x16_S16x1_S16384x1_1_0_0_1_n_n.lhsIdx i q 1).val = (q ⟨0, by decide⟩).val :=
  dot_S16384x16_S16x1_S16384x1_1_0_0_1_n_n.lhsIdx_val_of_single rfl i q
theorem rhsD_0 (i : S16384x1.Idx) (q : dot_S16384x16_S16x1_S16384x1_1_0_0_1_n_n.contr.Idx) :
    (dot_S16384x16_S16x1_S16384x1_1_0_0_1_n_n.rhsIdx i q 0).val = (q ⟨0, by decide⟩).val :=
  dot_S16384x16_S16x1_S16384x1_1_0_0_1_n_n.rhsIdx_val_of_single rfl i q
theorem rhsD_1 (i : S16384x1.Idx) (q : dot_S16384x16_S16x1_S16384x1_1_0_0_1_n_n.contr.Idx) :
    (dot_S16384x16_S16x1_S16384x1_1_0_0_1_n_n.rhsIdx i q 1).val = (i 1).val := by
  unfold DotDims.rhsIdx
  rw [dif_neg (show ¬(1 : Fin S16x1.rank) ∈ dot_S16384x16_S16x1_S16384x1_1_0_0_1_n_n.rhsBatch by decide), dif_pos (show (1 : Fin S16x1.rank) ∈ dot_S16384x16_S16x1_S16384x1_1_0_0_1_n_n.rhsNonContracting by decide)]
  rfl

/-- The product into a zero accumulator, at row `p` and column `j`: the sum over the 16 contracted coordinates. -/
theorem mmD (l : FVec Ideal S16384x16 .f32) (r : FVec Ideal S16x1 .f32) (p : Fin 16384) (j : Fin 1) :
    matmul dot_S16384x16_S16x1_S16384x1_1_0_0_1_n_n none l r (constant (F := Ideal) S16384x1 .f32 0x00000000#32) (ix2 p j)
      = ∑ k : Fin 16, l (ix2 p k) * r (ix2 k j) := by
  simp only [matmul]
  rw [Ideal.matmul_constant_zero_apply, ← Equiv.sum_comp (contrEquiv1 dot_S16384x16_S16x1_S16384x1_1_0_0_1_n_n 16 rfl rfl).symm]
  refine Finset.sum_congr rfl fun k _ => ?_
  have hk := contrEquiv1_symm_val dot_S16384x16_S16x1_S16384x1_1_0_0_1_n_n 16 rfl rfl k
  have el : dot_S16384x16_S16x1_S16384x1_1_0_0_1_n_n.lhsIdx (ix2 p j) ((contrEquiv1 dot_S16384x16_S16x1_S16384x1_1_0_0_1_n_n 16 rfl rfl).symm k) = ix2 p k := funext fun a => Fin.ext (by
    match a with
    | ⟨0, _⟩ => exact lhsD_0 _ _
    | ⟨1, _⟩ => exact (lhsD_1 _ _).trans hk)
  have er : dot_S16384x16_S16x1_S16384x1_1_0_0_1_n_n.rhsIdx (ix2 p j) ((contrEquiv1 dot_S16384x16_S16x1_S16384x1_1_0_0_1_n_n 16 rfl rfl).symm k) = ix2 k j := funext fun a => Fin.ext (by
    match a with
    | ⟨0, _⟩ => exact (rhsD_0 _ _).trans hk
    | ⟨1, _⟩ => exact rhsD_1 _ _)
  rw [el, er]

/-! ## The affine maps of the body, as whole-block functions, and their entries -/

/-- A bias of length 16, 2 or 1 laid along every row of the block. -/
def bias16 (b : FVec Ideal S16 .f32) : FVec Ideal S16384x16 .f32 :=
  broadcastTo S16384x16 (shapeCast S1x16 b shapeCasts_S16_S1x16) broadcasts_S1x16_S16384x16
def bias2 (b : FVec Ideal S2 .f32) : FVec Ideal S16384x2 .f32 :=
  broadcastTo S16384x2 (shapeCast S1x2 b shapeCasts_S2_S1x2) broadcasts_S1x2_S16384x2
def bias1 (b : FVec Ideal S1 .f32) : FVec Ideal S16384x1 .f32 :=
  broadcastTo S16384x1 (shapeCast S1x1 b shapeCasts_S1_S1x1) broadcasts_S1x1_S16384x1

theorem bias16_at (b : FVec Ideal S16 .f32) (p : Fin 16384) (j : Fin 16) : bias16 b (ix2 p j) = b (ix1 j) :=
  (broadcastTo_1b_ab_apply _ _ p j).trans (shapeCast_a_1a_apply b _ 0 j)
theorem bias2_at (b : FVec Ideal S2 .f32) (p : Fin 16384) (j : Fin 2) : bias2 b (ix2 p j) = b (ix1 j) :=
  (broadcastTo_1b_ab_apply _ _ p j).trans (shapeCast_a_1a_apply b _ 0 j)
theorem bias1_at (b : FVec Ideal S1 .f32) (p : Fin 16384) (j : Fin 1) : bias1 b (ix2 p j) = b (ix1 j) :=
  (broadcastTo_1b_ab_apply _ _ p j).trans (shapeCast_a_1a_apply b _ 0 j)

/-- The block through one affine map: product with the weights into zero, plus the bias on every row. -/
def affA (x : FVec Ideal S16384x2 .f32) (w : FVec Ideal S2x16 .f32) (b : FVec Ideal S16 .f32) : FVec Ideal S16384x16 .f32 :=
  addf (matmul dot_S16384x2_S2x16_S16384x16_1_0_0_1_n_n none x w (constant (F := Ideal) S16384x16 .f32 0x00000000#32)) (bias16 b)
def affB (h : FVec Ideal S16384x16 .f32) (w : FVec Ideal S16x16 .f32) (b : FVec Ideal S16 .f32) : FVec Ideal S16384x16 .f32 :=
  addf (matmul dot_S16384x16_S16x16_S16384x16_1_0_0_1_n_n none h w (constant (F := Ideal) S16384x16 .f32 0x00000000#32)) (bias16 b)
def affC (h : FVec Ideal S16384x16 .f32) (w : FVec Ideal S16x2 .f32) (b : FVec Ideal S2 .f32) : FVec Ideal S16384x2 .f32 :=
  addf (matmul dot_S16384x16_S16x2_S16384x2_1_0_0_1_n_n none h w (constant (F := Ideal) S16384x2 .f32 0x00000000#32)) (bias2 b)
def affD (h : FVec Ideal S16384x16 .f32) (w : FVec Ideal S16x1 .f32) (b : FVec Ideal S1 .f32) : FVec Ideal S16384x1 .f32 :=
  addf (matmul dot_S16384x16_S16x1_S16384x1_1_0_0_1_n_n none h w (constant (F := Ideal) S16384x1 .f32 0x00000000#32)) (bias1 b)

theorem affA_at (x : FVec Ideal S16384x2 .f32) (w : FVec Ideal S2x16 .f32) (b : FVec Ideal S16 .f32) (p : Fin 16384) (j : Fin 16) :
    affA x w b (ix2 p j) = affine (fun k => x (ix2 p k)) w b j :=
  congrArg₂ (· + ·) (mmA x w p j) (bias16_at b p j)
theorem affB_at (h : FVec Ideal S16384x16 .f32) (w : FVec Ideal S16x16 .f32) (b : FVec Ideal S16 .f32) (p : Fin 16384) (j : Fin 16) :
    affB h w b (ix2 p j) = affine (fun k => h (ix2 p k)) w b j :=
  congrArg₂ (· + ·) (mmB h w p j) (bias16_at b p j)
theorem affC_at (h : FVec Ideal S16384x16 .f32) (w : FVec Ideal S16x2 .f32) (b : FVec Ideal S2 .f32) (p : Fin 16384) (j : Fin 2) :
    affC h w b (ix2 p j) = affine (fun k => h (ix2 p k)) w b j :=
  congrArg₂ (· + ·) (mmC h w p j) (bias2_at b p j)
theorem affD_at (h : FVec Ideal S16384x16 .f32) (w : FVec Ideal S16x1 .f32) (b : FVec Ideal S1 .f32) (p : Fin 16384) (j : Fin 1) :
    affD h w b (ix2 p j) = affine (fun k => h (ix2 p k)) w b j :=
  congrArg₂ (· + ·) (mmD h w p j) (bias1_at b p j)

/-- tanh of an affine map of the block, at an entry, is one `layer` of the row. -/
theorem tanhA_at (x : FVec Ideal S16384x2 .f32) (w : FVec Ideal S2x16 .f32) (b : FVec Ideal S16 .f32) (p : Fin 16384) (j : Fin 16) :
    tanh (affA x w b) (ix2 p j) = layer (fun k => x (ix2 p k)) w b j :=
  congrArg Ideal.tanh (affA_at x w b p j)
theorem tanhB_at (h : FVec Ideal S16384x16 .f32) (w : FVec Ideal S16x16 .f32) (b : FVec Ideal S16 .f32) (p : Fin 16384) (j : Fin 16) :
    tanh (affB h w b) (ix2 p j) = layer (fun k => h (ix2 p k)) w b j :=
  congrArg Ideal.tanh (affB_at h w b p j)

/-! ## The three payloads at an entry -/

variable (v0 : FVec Ideal S16384x2 .f32) (w_d1 : FVec Ideal S2x16 .f32) (w_d2 : FVec Ideal S16x16 .f32)
  (w_d3 : FVec Ideal S16x2 .f32) (w_o1 : FVec Ideal S2x16 .f32) (w_o2 : FVec Ideal S16x16 .f32) (w_o3 : FVec Ideal S16x1 .f32)
  (b_d1 b_d2 : FVec Ideal S16 .f32) (b_d3 : FVec Ideal S2 .f32) (b_o1 b_o2 : FVec Ideal S16 .f32) (b_o3 : FVec Ideal S1 .f32)

/-- The weights and biases, gathered. -/
abbrev P : Params := ⟨w_d1, w_d2, w_d3, w_o1, w_o2, w_o3, b_d1, b_d2, b_d3, b_o1, b_o2, b_o3⟩

/-- The diagonal branch's payload: clip, shift and scale of the third affine map. -/
theorem pay2_at (p : Fin 16384) (j : Fin 2) :
    k0_pay2 (F := Ideal) v0 w_d1 b_d1 w_d2 b_d2 w_d3 b_d3 (ix2 p j)
      = diag (P w_d1 w_d2 w_d3 w_o1 w_o2 w_o3 b_d1 b_d2 b_d3 b_o1 b_o2 b_o3) (rowOf v0 p) j := by
  have e1 : ∀ k, tanh (affA v0 w_d1 b_d1) (ix2 p k) = layer (rowOf v0 p) w_d1 b_d1 k := fun k => tanhA_at v0 w_d1 b_d1 p k
  have e2 : ∀ k, tanh (affB (tanh (affA v0 w_d1 b_d1)) w_d2 b_d2) (ix2 p k) = layer (layer (rowOf v0 p) w_d1 b_d1) w_d2 b_d2 k :=
    fun k => (tanhB_at _ w_d2 b_d2 p k).trans (congrArg (fun f => layer f w_d2 b_d2 k) (funext e1))
  have e3 : affC (tanh (affB (tanh (affA v0 w_d1 b_d1)) w_d2 b_d2)) w_d3 b_d3 (ix2 p j)
      = diagPre (P w_d1 w_d2 w_d3 w_o1 w_o2 w_o3 b_d1 b_d2 b_d3 b_o1 b_o2 b_o3) (rowOf v0 p) j :=
    (affC_at _ w_d3 b_d3 p j).trans (congrArg (fun f => affine f w_d3 b_d3 j) (funext e2))
  exact congrArg (fun z => (max z (Ideal.ofBits .f32 0x00000000#32) + Ideal.ofBits .f32 0x3A83126F#32) * v0 (ix2 p j)) e3

/-- The off-diagonal branch's first payload: the second product, before its bias and tanh. -/
theorem pay3_tanh_at (p : Fin 16384) (k : Fin 16) :
    tanh (addf (k0_pay3 (F := Ideal) v0 w_o1 b_o1 w_o2) (bias16 b_o2)) (ix2 p k)
      = layer (layer (rowOf v0 p) w_o1 b_o1) w_o2 b_o2 k := by
  have e1 : ∀ k, tanh (affA v0 w_o1 b_o1) (ix2 p k) = layer (rowOf v0 p) w_o1 b_o1 k := fun k => tanhA_at v0 w_o1 b_o1 p k
  exact (tanhB_at (tanh (affA v0 w_o1 b_o1)) w_o2 b_o2 p k).trans (congrArg (fun f => layer f w_o2 b_o2 k) (funext e1))

/-- The stored value at `(p, q)`. -/
theorem pay1_at (p : Fin 16384) (q : Fin 2) :
    k0_pay1 (F := Ideal) v0 (k0_pay2 v0 w_d1 b_d1 w_d2 b_d2 w_d3 b_d3) (k0_pay3 v0 w_o1 b_o1 w_o2) b_o2 w_o3 b_o3 (ix2 p q)
      = outRow (P w_d1 w_d2 w_d3 w_o1 w_o2 w_o3 b_d1 b_d2 b_d3 b_o1 b_o2 b_o3) (rowOf v0 p) q := by
  -- the perceptrons' outputs on row `p`
  have hc : affD (tanh (addf (k0_pay3 (F := Ideal) v0 w_o1 b_o1 w_o2) (bias16 b_o2))) w_o3 b_o3 (ix2 p (0 : Fin 1))
      = off (P w_d1 w_d2 w_d3 w_o1 w_o2 w_o3 b_d1 b_d2 b_d3 b_o1 b_o2 b_o3) (rowOf v0 p) :=
    (affD_at _ w_o3 b_o3 p 0).trans (congrArg (fun f => affine f w_o3 b_o3 0)
      (funext fun k => pay3_tanh_at v0 w_o1 w_o2 b_o1 b_o2 p k))
  have ha : ∀ j : Fin 2, k0_pay2 (F := Ideal) v0 w_d1 b_d1 w_d2 b_d2 w_d3 b_d3 (ix2 p j)
      = diag (P w_d1 w_d2 w_d3 w_o1 w_o2 w_o3 b_d1 b_d2 b_d3 b_o1 b_o2 b_o3) (rowOf v0 p) j :=
    fun j => pay2_at v0 w_d1 w_d2 w_d3 w_o1 w_o2 w_o3 b_d1 b_d2 b_d3 b_o1 b_o2 b_o3 p j
  -- the width-one column slices of the block and of the diagonal payload
  have s0 : ∀ (X : FVec Ideal S16384x2 .f32), extractStridedSlice S16384x1 ![0, 0] X slices_S16384x2_o0_0_S16384x1 (ix2 p (0 : Fin 1)) = X (ix2 p (0 : Fin 2)) :=
    fun X => slice2_axis1_apply 0 X _ p 0 0 rfl
  have s1 : ∀ (X : FVec Ideal S16384x2 .f32), extractStridedSlice S16384x1 ![0, 1] X slices_S16384x2_o0_1_S16384x1 (ix2 p (0 : Fin 1)) = X (ix2 p (1 : Fin 2)) :=
    fun X => slice2_axis1_apply 1 X _ p 0 1 rfl
  unfold k0_pay1 outRow
  by_cases hq : q.val = 0
  · rw [if_pos hq]
    refine (concatenate_pair_apply_left (t := S16384x2) (s₁ := S16384x1) (s₂ := S16384x1) (1 : Fin 2) _ _ concatenates_S16384x1_S16384x1_S16384x2_d1 (ix2 p q) rfl
      (ix2 p (0 : Fin 1)) (fun b => by match b with | ⟨0, _⟩ => rfl | ⟨1, _⟩ => exact hq.symm)).trans ?_
    show extractStridedSlice (s := S16384x2) S16384x1 ![0, 0] _ _ (ix2 p 0) * extractStridedSlice (s := S16384x2) S16384x1 ![0, 0] _ _ (ix2 p 0) * extractStridedSlice (s := S16384x2) S16384x1 ![0, 0] v0 _ (ix2 p 0)
        + extractStridedSlice (s := S16384x2) S16384x1 ![0, 0] _ _ (ix2 p 0) * affD (tanh (addf (k0_pay3 (F := Ideal) v0 w_o1 b_o1 w_o2) (bias16 b_o2))) w_o3 b_o3 (ix2 p 0) * extractStridedSlice (s := S16384x2) S16384x1 ![0, 1] v0 _ (ix2 p 0) = _
    rw [s0, s0, s1, ha, hc]
    rfl
  · rw [if_neg hq]
    have hq1 : q.val = 1 := by omega
    refine (concatenate_pair_apply_right (t := S16384x2) (s₁ := S16384x1) (s₂ := S16384x1) (1 : Fin 2) _ _ concatenates_S16384x1_S16384x1_S16384x2_d1 (ix2 p q) rfl rfl
      (ix2 p (0 : Fin 1)) (fun b hb => by match b with | ⟨0, _⟩ => rfl | ⟨1, _⟩ => exact absurd rfl hb) (by show 0 + 1 = q.val; omega)).trans ?_
    show extractStridedSlice (s := S16384x2) S16384x1 ![0, 0] _ _ (ix2 p 0) * affD (tanh (addf (k0_pay3 (F := Ideal) v0 w_o1 b_o1 w_o2) (bias16 b_o2))) w_o3 b_o3 (ix2 p 0) * extractStridedSlice (s := S16384x2) S16384x1 ![0, 0] v0 _ (ix2 p 0)
        + (affD (tanh (addf (k0_pay3 (F := Ideal) v0 w_o1 b_o1 w_o2) (bias16 b_o2))) w_o3 b_o3 (ix2 p 0) * affD (tanh (addf (k0_pay3 (F := Ideal) v0 w_o1 b_o1 w_o2) (bias16 b_o2))) w_o3 b_o3 (ix2 p 0)
          + extractStridedSlice (s := S16384x2) S16384x1 ![0, 1] _ _ (ix2 p 0) * extractStridedSlice (s := S16384x2) S16384x1 ![0, 1] _ _ (ix2 p 0)) * extractStridedSlice (s := S16384x2) S16384x1 ![0, 1] v0 _ (ix2 p 0) = _
    rw [s0, s0, s1, s1, ha, ha, hc]
    rfl

end Cert.KernelIdeal.RowPay

end
-- ==== Proof.KernelArray.lean ====
/-
  From the blocks to the whole array.

  The grid has 256 points; point `t` stages rows `16384·t … 16384·t + 16383` of `x` and of the result (both windows
  move together, one block of 16384 rows per point, the two columns whole), and every parameter array whole (their
  block index is constantly zero). What the point writes back is therefore the row map of those rows of `x`, which
  is the same block of the row map of the whole of `x`; the 256 blocks tile the 4194304 rows, so after the run the
  result array is the row map of `x`.
-/
import proofs.«138228_j27066883900008_1_alg».proof.Proof.Gen.KernelIdeal.Value
import proofs.«138228_j27066883900008_1_alg».proof.Proof.KernelRows

noncomputable section

namespace Cert.KernelIdeal.RowValue

open Cert.KernelIdeal Cert.KernelIdeal.Gen Cert.KernelIdeal.Value Idealize.ShloMosaic Idealize.ShloMosaic.TcCoe Idealize.SL.Sem
open Idealize.ShloMosaic.ValueIdx Cert.RowMap
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The weights and biases as launched. -/
abbrev PM (c : Dev nD) : Params := ⟨m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12)⟩

/-- What the result array ends holding: the row map of `x` as launched. -/
abbrev G (c : Dev nD) : Buf (Elt Ideal) ((c : Thread nD τ).loc main_v0) :=
  result (PM m c) (m ((c : Thread nD τ).loc main_arg0))

/-- The printed index maps over the 256 points: `x`'s and the result's block index is the point on the row axis
    and zero on the column axis; every parameter's is zero. -/
theorem idx_facts : ∀ t : Fin cfg0.N, win0_0.index t (0 : Fin 2) = t.val
    ∧ win0_0.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 1) = 0 :=
  (by decide +kernel : ∀ t : Fin grid0.N, _)

/-! ## The staged blocks -/

/-- The block of `x` at point `t`, at row `p`, is row `16384·t + p` of `x`. -/
theorem xblk_at (c : Dev nD) (t : Fin cfg0.N) (p : Fin 16384) (k : Fin 2) (r : Fin 4194304) (hr : r.val = t.val * 16384 + p.val) :
    (iblk m c 0 t : Vec Ideal S16384x2 .f32) (ix2 p k) = (m ((c : Thread nD τ).loc main_arg0) : S4194304x2.Idx → Elt Ideal .f32) (ix2 r k) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 16384 + 1 * p.val = r.val; rw [x0, hr]; omega
  | ⟨1, _⟩ => show win0_0.index t (1 : Fin 2) * 2 + 1 * k.val = k.val; rw [x1]; omega

theorem pblk1 (c : Dev nD) (t : Fin cfg0.N) :
    (iblk m c 1 t : Vec Ideal S2x16 .f32) = (m ((c : Thread nD τ).loc main_arg1) : S2x16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg1 _ = m (c.tc.loc main_arg1) _
  unfold V
  congr 1
  funext a
  apply Fin.ext
  match a with
    | ⟨0, _⟩ => show win0_1.index t (0 : Fin 2) * 2 + 1 * (y 0).val = (y 0).val; rw [w1_0]; omega
    | ⟨1, _⟩ => show win0_1.index t (1 : Fin 2) * 16 + 1 * (y 1).val = (y 1).val; rw [w1_1]; omega

theorem pblk2 (c : Dev nD) (t : Fin cfg0.N) :
    (iblk m c 2 t : Vec Ideal S16x16 .f32) = (m ((c : Thread nD τ).loc main_arg2) : S16x16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg2 _ = m (c.tc.loc main_arg2) _
  unfold V
  congr 1
  funext a
  apply Fin.ext
  match a with
    | ⟨0, _⟩ => show win0_2.index t (0 : Fin 2) * 16 + 1 * (y 0).val = (y 0).val; rw [w2_0]; omega
    | ⟨1, _⟩ => show win0_2.index t (1 : Fin 2) * 16 + 1 * (y 1).val = (y 1).val; rw [w2_1]; omega

theorem pblk3 (c : Dev nD) (t : Fin cfg0.N) :
    (iblk m c 3 t : Vec Ideal S16x2 .f32) = (m ((c : Thread nD τ).loc main_arg3) : S16x2.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg3 _ = m (c.tc.loc main_arg3) _
  unfold V
  congr 1
  funext a
  apply Fin.ext
  match a with
    | ⟨0, _⟩ => show win0_3.index t (0 : Fin 2) * 16 + 1 * (y 0).val = (y 0).val; rw [w3_0]; omega
    | ⟨1, _⟩ => show win0_3.index t (1 : Fin 2) * 2 + 1 * (y 1).val = (y 1).val; rw [w3_1]; omega

theorem pblk4 (c : Dev nD) (t : Fin cfg0.N) :
    (iblk m c 4 t : Vec Ideal S2x16 .f32) = (m ((c : Thread nD τ).loc main_arg4) : S2x16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg4 _ = m (c.tc.loc main_arg4) _
  unfold V
  congr 1
  funext a
  apply Fin.ext
  match a with
    | ⟨0, _⟩ => show win0_4.index t (0 : Fin 2) * 2 + 1 * (y 0).val = (y 0).val; rw [w4_0]; omega
    | ⟨1, _⟩ => show win0_4.index t (1 : Fin 2) * 16 + 1 * (y 1).val = (y 1).val; rw [w4_1]; omega

theorem pblk5 (c : Dev nD) (t : Fin cfg0.N) :
    (iblk m c 5 t : Vec Ideal S16x16 .f32) = (m ((c : Thread nD τ).loc main_arg5) : S16x16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg5 _ = m (c.tc.loc main_arg5) _
  unfold V
  congr 1
  funext a
  apply Fin.ext
  match a with
    | ⟨0, _⟩ => show win0_5.index t (0 : Fin 2) * 16 + 1 * (y 0).val = (y 0).val; rw [w5_0]; omega
    | ⟨1, _⟩ => show win0_5.index t (1 : Fin 2) * 16 + 1 * (y 1).val = (y 1).val; rw [w5_1]; omega

theorem pblk6 (c : Dev nD) (t : Fin cfg0.N) :
    (iblk m c 6 t : Vec Ideal S16x1 .f32) = (m ((c : Thread nD τ).loc main_arg6) : S16x1.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg6 _ = m (c.tc.loc main_arg6) _
  unfold V
  congr 1
  funext a
  apply Fin.ext
  match a with
    | ⟨0, _⟩ => show win0_6.index t (0 : Fin 2) * 16 + 1 * (y 0).val = (y 0).val; rw [w6_0]; omega
    | ⟨1, _⟩ => show win0_6.index t (1 : Fin 2) * 1 + 1 * (y 1).val = (y 1).val; rw [w6_1]; omega

theorem pblk7 (c : Dev nD) (t : Fin cfg0.N) :
    (iblk m c 7 t : Vec Ideal S16 .f32) = (m ((c : Thread nD τ).loc main_arg7) : S16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg7 _ = m (c.tc.loc main_arg7) _
  unfold V
  congr 1
  funext a
  apply Fin.ext
  match a with
    | ⟨0, _⟩ => show win0_7.index t (0 : Fin 1) * 16 + 1 * (y 0).val = (y 0).val; rw [w7_0]; omega

theorem pblk8 (c : Dev nD) (t : Fin cfg0.N) :
    (iblk m c 8 t : Vec Ideal S16 .f32) = (m ((c : Thread nD τ).loc main_arg8) : S16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg8 _ = m (c.tc.loc main_arg8) _
  unfold V
  congr 1
  funext a
  apply Fin.ext
  match a with
    | ⟨0, _⟩ => show win0_8.index t (0 : Fin 1) * 16 + 1 * (y 0).val = (y 0).val; rw [w8_0]; omega

theorem pblk9 (c : Dev nD) (t : Fin cfg0.N) :
    (iblk m c 9 t : Vec Ideal S2 .f32) = (m ((c : Thread nD τ).loc main_arg9) : S2.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg9 _ = m (c.tc.loc main_arg9) _
  unfold V
  congr 1
  funext a
  apply Fin.ext
  match a with
    | ⟨0, _⟩ => show win0_9.index t (0 : Fin 1) * 2 + 1 * (y 0).val = (y 0).val; rw [w9_0]; omega

theorem pblk10 (c : Dev nD) (t : Fin cfg0.N) :
    (iblk m c 10 t : Vec Ideal S16 .f32) = (m ((c : Thread nD τ).loc main_arg10) : S16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg10 _ = m (c.tc.loc main_arg10) _
  unfold V
  congr 1
  funext a
  apply Fin.ext
  match a with
    | ⟨0, _⟩ => show win0_10.index t (0 : Fin 1) * 16 + 1 * (y 0).val = (y 0).val; rw [w10_0]; omega

theorem pblk11 (c : Dev nD) (t : Fin cfg0.N) :
    (iblk m c 11 t : Vec Ideal S16 .f32) = (m ((c : Thread nD τ).loc main_arg11) : S16.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg11 _ = m (c.tc.loc main_arg11) _
  unfold V
  congr 1
  funext a
  apply Fin.ext
  match a with
    | ⟨0, _⟩ => show win0_11.index t (0 : Fin 1) * 16 + 1 * (y 0).val = (y 0).val; rw [w11_0]; omega

theorem pblk12 (c : Dev nD) (t : Fin cfg0.N) :
    (iblk m c 12 t : Vec Ideal S1 .f32) = (m ((c : Thread nD τ).loc main_arg12) : S1.Idx → Elt Ideal .f32) := by
  obtain ⟨x0, x1, o0, o1, w1_0, w1_1, w2_0, w2_1, w3_0, w3_1, w4_0, w4_1, w5_0, w5_1, w6_0, w6_1, w7_0, w8_0, w9_0, w10_0, w11_0, w12_0⟩ := idx_facts t
  funext y
  unfold iblk
  rw [View.read_apply]
  show V m c main_arg12 _ = m (c.tc.loc main_arg12) _
  unfold V
  congr 1
  funext a
  apply Fin.ext
  match a with
    | ⟨0, _⟩ => show win0_12.index t (0 : Fin 1) * 1 + 1 * (y 0).val = (y 0).val; rw [w12_0]; omega

/-! ## What a point stores, over variables of the literal types -/

/-- If the loaded block `xb` is rows `16384·tv + ·` of `X` and the loaded parameters are `W`, the stored value at
    `(p, q)` is the row map of `X` at `(16384·tv + p, q)`. -/
theorem stored_eq (X : Mat 4194304 2) (xb : FVec Ideal S16384x2 .f32)
    (wb1 : FVec Ideal S2x16 .f32) (wb2 : FVec Ideal S16x16 .f32) (wb3 : FVec Ideal S16x2 .f32) (wb4 : FVec Ideal S2x16 .f32)
    (wb5 : FVec Ideal S16x16 .f32) (wb6 : FVec Ideal S16x1 .f32) (wb7 wb8 : FVec Ideal S16 .f32) (wb9 : FVec Ideal S2 .f32)
    (wb10 wb11 : FVec Ideal S16 .f32) (wb12 : FVec Ideal S1 .f32) (W : Params)
    (h1 : wb1 = W.w_d1) (h2 : wb2 = W.w_d2) (h3 : wb3 = W.w_d3) (h4 : wb4 = W.w_o1) (h5 : wb5 = W.w_o2) (h6 : wb6 = W.w_o3)
    (h7 : wb7 = W.b_d1) (h8 : wb8 = W.b_d2) (h9 : wb9 = W.b_d3) (h10 : wb10 = W.b_o1) (h11 : wb11 = W.b_o2) (h12 : wb12 = W.b_o3)
    (tv : Nat) (hx : ∀ (p : Fin 16384) (k : Fin 2) (r : Fin 4194304), r.val = tv * 16384 + p.val → xb (ix2 p k) = X (ix2 r k))
    (p : Fin 16384) (q : Fin 2) (r : Fin 4194304) (hr : r.val = tv * 16384 + p.val) :
    k0_pay1 (F := Ideal) xb (k0_pay2 xb wb1 wb7 wb2 wb8 wb3 wb9) (k0_pay3 xb wb4 wb10 wb5) wb11 wb6 wb12 (ix2 p q)
      = result W X (ix2 r q) := by
  obtain ⟨W1, W2, W3, W4, W5, W6, W7, W8, W9, W10, W11, W12⟩ := W
  subst h1 h2 h3 h4 h5 h6 h7 h8 h9 h10 h11 h12
  rw [Cert.KernelIdeal.RowPay.pay1_at, result_apply]
  exact congrArg (fun f => outRow _ f q) (funext fun k => hx p k r hr)

/-! ## The write-back, the cover, the array -/

/-- What point `t` writes back is block `t` of `G`. -/
theorem flushed_eq (c : Dev nD) (t : Fin cfg0.N) :
    (dats m 0 c).flushed 13 t = ((cfg0.win 13).blk t).view.read (Elt Ideal) (G m c) := by
  rw [flushed13]
  unfold out0_13
  rw [View.canon_unit_zero hz2]
  simp only [View.ld_unit_zero (S := S16384x2) hz2, View.ld_unit_zero (S := S2x16) hz2, View.ld_unit_zero (S := S16x16) hz2,
    View.ld_unit_zero (S := S16x2) hz2, View.ld_unit_zero (S := S16x1) hz2, View.ld_unit_zero (S := S16) hz1,
    View.ld_unit_zero (S := S2) hz1, View.ld_unit_zero (S := S1) hz1]
  obtain ⟨x0, x1, o0, o1, w1_0, w1_1, w2_0, w2_1, w3_0, w3_1, w4_0, w4_1, w5_0, w5_1, w6_0, w6_1, w7_0, w8_0, w9_0, w10_0, w11_0, w12_0⟩ := idx_facts t
  have ht : t.val < 256 := lt_of_lt_of_eq t.isLt N_0
  funext y
  obtain ⟨p, q, rfl⟩ : ∃ (p : Fin 16384) (q : Fin 2), y = ix2 p q := ⟨y 0, y 1, eq_ix2 y⟩
  have hp : p.val < 16384 := p.isLt
  let r : Fin 4194304 := ⟨t.val * 16384 + p.val, by omega⟩
  have he : ((cfg0.win 13).blk t).view.emb (ix2 p q) = ix2 r q := by
    funext a; apply Fin.ext
    match a with
    | ⟨0, _⟩ => show win0_13.index t (0 : Fin 2) * 16384 + 1 * p.val = t.val * 16384 + p.val; rw [o0]; omega
    | ⟨1, _⟩ => show win0_13.index t (1 : Fin 2) * 2 + 1 * q.val = q.val; rw [o1]; omega
  rw [View.read_apply, he]
  exact stored_eq (m ((c : Thread nD τ).loc main_arg0)) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) (PM m c)
    (pblk1 m c t) (pblk2 m c t) (pblk3 m c t) (pblk4 m c t) (pblk5 m c t) (pblk6 m c t) (pblk7 m c t) (pblk8 m c t) (pblk9 m c t)
    (pblk10 m c t) (pblk11 m c t) (pblk12 m c t) t.val (fun p k r hr => xblk_at m c t p k r hr) p q r rfl

/-- An index of the array is in point `t`'s block iff each coordinate is in the block's range on its axis. -/
theorem mem_blk (t : Fin cfg0.N) (i : S4194304x2.Idx) :
    i ∈ ((cfg0.win 13).blk t).view.set ↔ ∀ a : Fin 2, win0_13.index t a * S16384x2.size a ≤ (i a).val ∧ (i a).val < win0_13.index t a * S16384x2.size a + S16384x2.size a := by
  show i ∈ ((View.whole main_v0).slice (win0_13.rect t)).set ↔ _
  rw [View.set_slice_whole, Rect.mem_set_unit]
  exact Iff.rfl

/-- Every row lies in the block of the point `row / 16384`. -/
theorem cover (i : S4194304x2.Idx) : ∃ t : Fin cfg0.N, (cfg0.win 13).flush t = true ∧ i ∈ ((cfg0.win 13).blk t).view.set := by
  have hi0 : (i 0).val < 4194304 := (i 0).isLt
  have hi1 : (i 1).val < 2 := (i 1).isLt
  let t : Fin cfg0.N := ⟨(i 0).val / 16384, by rw [show cfg0.N = 256 from N_0]; omega⟩
  obtain ⟨x0, x1, o0, o1, w1_0, w1_1, w2_0, w2_1, w3_0, w3_1, w4_0, w4_1, w5_0, w5_1, w6_0, w6_1, w7_0, w8_0, w9_0, w10_0, w11_0, w12_0⟩ := idx_facts t
  have htv : t.val = (i 0).val / 16384 := rfl
  refine ⟨t, flush0_13 t, ?_⟩
  rw [mem_blk]
  intro a
  match a with
  | ⟨0, _⟩ => show win0_13.index t (0 : Fin 2) * 16384 ≤ (i 0).val ∧ (i 0).val < win0_13.index t (0 : Fin 2) * 16384 + 16384; rw [o0]; omega
  | ⟨1, _⟩ => show win0_13.index t (1 : Fin 2) * 2 ≤ (i 1).val ∧ (i 1).val < win0_13.index t (1 : Fin 2) * 2 + 2; rw [o1]; omega

/-- The result array after the run is the row map of `x`. -/
theorem final (c : Dev nD) : (dats m 0 c).arrAt 13 cfg0.N = G m c :=
  (dats m 0 c).arrAt_eq_of_cover 13 (G m c) (fun t _ => flushed_eq m c t) cover

/-- The run, read: the result array at the row map of `x`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.RowValue

end
-- ==== Proof.ReferenceRows.lean ====
/-
  The reference program, read one row at a time.

  The host program applies each operation to whole arrays of 4194304 rows. Every one of its operations is
  row-local: a matrix product with a small weight matrix contracts only the row's own coordinates, a bias is
  broadcast along the rows, tanh, max, + and · act entry by entry, and the slices, reshapes and the final
  concatenation only move an entry of row `p` to another place in row `p`. So each intermediate array, read at
  row `p`, is the corresponding stage of `Cert.RowMap` applied to row `p` of the input, and the result at
  `(p, q)` is `outRow` of that row at `q`.
-/
import proofs.«138228_j27066883900008_1_alg».proof.Proof.Gen.ReferenceIdeal.Read
import proofs.«138228_j27066883900008_1_alg».proof.Proof.RowMap

noncomputable section

namespace Cert.ReferenceIdeal.RowRead

open Cert.ReferenceIdeal Cert.ReferenceIdeal.Read Idealize.ShloMosaic Idealize.ShloMosaic.ValueIdx Cert.RowMap

variable (x0 : Mat 4194304 2) (x1 : Mat 2 16) (x2 : Mat 16 16) (x3 : Mat 16 2) (x4 : Mat 2 16) (x5 : Mat 16 16)
  (x6 : Mat 16 1) (x7 x8 : Vect 16) (x9 : Vect 2) (x10 x11 : Vect 16) (x12 : Vect 1)

/-- The weights and biases, gathered. -/
abbrev P : Params := ⟨x1, x2, x3, x4, x5, x6, x7, x8, x9, x10, x11, x12⟩

/-! ## Where each operation reads its operands, at an index given by coordinates -/

section Indices
variable (p : Fin 4194304)

theorem l0 (j : Fin 16) (k : Fin 2) : lidx_main_v0 (ix2 p j) k = ix2 p k :=
  funext fun a => Fin.ext (by match a with | ⟨0, _⟩ => rfl | ⟨1, _⟩ => rfl)
theorem r0 (j : Fin 16) (k : Fin 2) : ridx_main_v0 (ix2 p j) k = ix2 k j :=
  funext fun a => Fin.ext (by match a with | ⟨0, _⟩ => rfl | ⟨1, _⟩ => rfl)
theorem b2 (j : Fin 16) : idx_main_v1 (idx_main_v2 (ix2 p j)) = ix1 j :=
  funext fun a => Fin.ext (by match a with | ⟨0, _⟩ => rfl)
theorem l5 (j : Fin 16) (k : Fin 16) : lidx_main_v5 (ix2 p j) k = ix2 p k :=
  funext fun a => Fin.ext (by match a with | ⟨0, _⟩ => rfl | ⟨1, _⟩ => rfl)
theorem r5 (j : Fin 16) (k : Fin 16) : ridx_main_v5 (ix2 p j) k = ix2 k j :=
  funext fun a => Fin.ext (by match a with | ⟨0, _⟩ => rfl | ⟨1, _⟩ => rfl)
theorem b7 (j : Fin 16) : idx_main_v6 (idx_main_v7 (ix2 p j)) = ix1 j :=
  funext fun a => Fin.ext (by match a with | ⟨0, _⟩ => rfl)
theorem l10 (j : Fin 2) (k : Fin 16) : lidx_main_v10 (ix2 p j) k = ix2 p k :=
  funext fun a => Fin.ext (by match a with | ⟨0, _⟩ => rfl | ⟨1, _⟩ => rfl)
theorem r10 (j : Fin 2) (k : Fin 16) : ridx_main_v10 (ix2 p j) k = ix2 k j :=
  funext fun a => Fin.ext (by match a with | ⟨0, _⟩ => rfl | ⟨1, _⟩ => rfl)
theorem b12 (j : Fin 2) : idx_main_v11 (idx_main_v12 (ix2 p j)) = ix1 j :=
  funext fun a => Fin.ext (by match a with | ⟨0, _⟩ => rfl)
theorem l19 (j : Fin 16) (k : Fin 2) : lidx_main_v19 (ix2 p j) k = ix2 p k :=
  funext fun a => Fin.ext (by match a with | ⟨0, _⟩ => rfl | ⟨1, _⟩ => rfl)
theorem r19 (j : Fin 16) (k : Fin 2) : ridx_main_v19 (ix2 p j) k = ix2 k j :=
  funext fun a => Fin.ext (by match a with | ⟨0, _⟩ => rfl | ⟨1, _⟩ => rfl)
theorem b21 (j : Fin 16) : idx_main_v20 (idx_main_v21 (ix2 p j)) = ix1 j :=
  funext fun a => Fin.ext (by match a with | ⟨0, _⟩ => rfl)
theorem l24 (j : Fin 16) (k : Fin 16) : lidx_main_v24 (ix2 p j) k = ix2 p k :=
  funext fun a => Fin.ext (by match a with | ⟨0, _⟩ => rfl | ⟨1, _⟩ => rfl)
theorem r24 (j : Fin 16) (k : Fin 16) : ridx_main_v24 (ix2 p j) k = ix2 k j :=
  funext fun a => Fin.ext (by match a with | ⟨0, _⟩ => rfl | ⟨1, _⟩ => rfl)
theorem b26 (j : Fin 16) : idx_main_v25 (idx_main_v26 (ix2 p j)) = ix1 j :=
  funext fun a => Fin.ext (by match a with | ⟨0, _⟩ => rfl)
theorem l29 (j : Fin 1) (k : Fin 16) : lidx_main_v29 (ix2 p j) k = ix2 p k :=
  funext fun a => Fin.ext (by match a with | ⟨0, _⟩ => rfl | ⟨1, _⟩ => rfl)
theorem r29 (j : Fin 1) (k : Fin 16) : ridx_main_v29 (ix2 p j) k = ix2 k j :=
  funext fun a => Fin.ext (by match a with | ⟨0, _⟩ => rfl | ⟨1, _⟩ => rfl)
theorem b31 (j : Fin 1) : idx_main_v30 (idx_main_v31 (ix2 p j)) = ix1 j :=
  funext fun a => Fin.ext (by match a with | ⟨0, _⟩ => show (0 : Nat) = j.val; omega)

/-- The column slices followed by the reshape to one axis read row `p` at column 0, respectively 1. -/
theorem s34 : idx_main_v33 (idx_main_v34 (ix1 p)) = ix2 p (0 : Fin 2) :=
  funext fun a => Fin.ext (by match a with | ⟨0, _⟩ => exact Nat.div_one _ | ⟨1, _⟩ => rfl)
theorem s36 : idx_main_v35 (idx_main_v36 (ix1 p)) = ix2 p (1 : Fin 2) :=
  funext fun a => Fin.ext (by match a with | ⟨0, _⟩ => exact Nat.div_one _ | ⟨1, _⟩ => rfl)
theorem s37 : idx_main_v37 (ix1 p) = ix2 p (0 : Fin 1) :=
  funext fun a => Fin.ext (by match a with | ⟨0, _⟩ => exact Nat.div_one _ | ⟨1, _⟩ => rfl)
theorem s39 : idx_main_v38 (idx_main_v39 (ix1 p)) = ix2 p (0 : Fin 2) :=
  funext fun a => Fin.ext (by match a with | ⟨0, _⟩ => exact Nat.div_one _ | ⟨1, _⟩ => rfl)
theorem s41 : idx_main_v40 (idx_main_v41 (ix1 p)) = ix2 p (1 : Fin 2) :=
  funext fun a => Fin.ext (by match a with | ⟨0, _⟩ => exact Nat.div_one _ | ⟨1, _⟩ => rfl)
theorem c54 (j : Fin 1) : idx_main_v54 (ix2 p j) = ix1 p :=
  funext fun a => Fin.ext (by match a with | ⟨0, _⟩ => rfl)
theorem c55 (j : Fin 1) : idx_main_v55 (ix2 p j) = ix1 p :=
  funext fun a => Fin.ext (by match a with | ⟨0, _⟩ => rfl)

end Indices

/-! ## The diagonal branch -/

theorem v4_at (p : Fin 4194304) (j : Fin 16) :
    val_main_v4 (F := Ideal) x0 x1 x7 (ix2 p j) = layer (rowOf x0 p) x1 x7 j := by
  rw [val_main_v4_apply, val_main_v3_apply, val_main_v0_apply, val_main_v2_apply, val_main_v1_apply]
  simp only [l0, r0, b2]
  rfl

theorem v9_at (p : Fin 4194304) (j : Fin 16) :
    val_main_v9 (F := Ideal) x0 x1 x2 x7 x8 (ix2 p j) = layer (layer (rowOf x0 p) x1 x7) x2 x8 j := by
  rw [val_main_v9_apply, val_main_v8_apply, val_main_v5_apply, val_main_v7_apply, val_main_v6_apply]
  simp only [l5, r5, b7, v4_at]
  rfl

theorem v13_at (p : Fin 4194304) (j : Fin 2) :
    val_main_v13 (F := Ideal) x0 x1 x2 x3 x7 x8 x9 (ix2 p j)
      = diagPre (P x1 x2 x3 x4 x5 x6 x7 x8 x9 x10 x11 x12) (rowOf x0 p) j := by
  rw [val_main_v13_apply, val_main_v10_apply, val_main_v12_apply, val_main_v11_apply]
  simp only [l10, r10, b12, v9_at]
  rfl

theorem v18_at (p : Fin 4194304) (j : Fin 2) :
    val_main_v18 (F := Ideal) x0 x1 x2 x3 x7 x8 x9 (ix2 p j)
      = diag (P x1 x2 x3 x4 x5 x6 x7 x8 x9 x10 x11 x12) (rowOf x0 p) j := by
  rw [val_main_v18_apply, val_main_v17_apply, val_main_v14_apply, v13_at x0 x1 x2 x3 x4 x5 x6 x7 x8 x9 x10 x11 x12]
  rfl

/-! ## The off-diagonal branch -/

theorem v23_at (p : Fin 4194304) (j : Fin 16) :
    val_main_v23 (F := Ideal) x0 x4 x10 (ix2 p j) = layer (rowOf x0 p) x4 x10 j := by
  rw [val_main_v23_apply, val_main_v22_apply, val_main_v19_apply, val_main_v21_apply, val_main_v20_apply]
  simp only [l19, r19, b21]
  rfl

theorem v28_at (p : Fin 4194304) (j : Fin 16) :
    val_main_v28 (F := Ideal) x0 x4 x5 x10 x11 (ix2 p j) = layer (layer (rowOf x0 p) x4 x10) x5 x11 j := by
  rw [val_main_v28_apply, val_main_v27_apply, val_main_v24_apply, val_main_v26_apply, val_main_v25_apply]
  simp only [l24, r24, b26, v23_at]
  rfl

theorem v32_at (p : Fin 4194304) :
    val_main_v32 (F := Ideal) x0 x4 x5 x6 x10 x11 x12 (ix2 p (0 : Fin 1))
      = off (P x1 x2 x3 x4 x5 x6 x7 x8 x9 x10 x11 x12) (rowOf x0 p) := by
  rw [val_main_v32_apply, val_main_v29_apply, val_main_v31_apply, val_main_v30_apply]
  simp only [l29, r29, b31, v28_at]
  rfl

/-! ## The columns as one-axis arrays, and the two entries of the result -/

theorem v34_at (p : Fin 4194304) :
    val_main_v34 (F := Ideal) x0 x1 x2 x3 x7 x8 x9 (ix1 p)
      = diag (P x1 x2 x3 x4 x5 x6 x7 x8 x9 x10 x11 x12) (rowOf x0 p) 0 := by
  rw [val_main_v34_apply, val_main_v33_apply, s34, v18_at x0 x1 x2 x3 x4 x5 x6 x7 x8 x9 x10 x11 x12]

theorem v36_at (p : Fin 4194304) :
    val_main_v36 (F := Ideal) x0 x1 x2 x3 x7 x8 x9 (ix1 p)
      = diag (P x1 x2 x3 x4 x5 x6 x7 x8 x9 x10 x11 x12) (rowOf x0 p) 1 := by
  rw [val_main_v36_apply, val_main_v35_apply, s36, v18_at x0 x1 x2 x3 x4 x5 x6 x7 x8 x9 x10 x11 x12]

theorem v37_at (p : Fin 4194304) :
    val_main_v37 (F := Ideal) x0 x4 x5 x6 x10 x11 x12 (ix1 p)
      = off (P x1 x2 x3 x4 x5 x6 x7 x8 x9 x10 x11 x12) (rowOf x0 p) := by
  rw [val_main_v37_apply, s37, v32_at x0 x1 x2 x3 x4 x5 x6 x7 x8 x9 x10 x11 x12]

theorem v39_at (p : Fin 4194304) : val_main_v39 (F := Ideal) x0 (ix1 p) = rowOf x0 p 0 := by
  rw [val_main_v39_apply, val_main_v38_apply, s39]; rfl

theorem v41_at (p : Fin 4194304) : val_main_v41 (F := Ideal) x0 (ix1 p) = rowOf x0 p 1 := by
  rw [val_main_v41_apply, val_main_v40_apply, s41]; rfl

theorem v46_at (p : Fin 4194304) :
    val_main_v46 (F := Ideal) x0 x1 x2 x3 x4 x5 x6 x7 x8 x9 x10 x11 x12 (ix1 p)
      = out0 (P x1 x2 x3 x4 x5 x6 x7 x8 x9 x10 x11 x12) (rowOf x0 p) := by
  rw [val_main_v46_apply, val_main_v43_apply, val_main_v42_apply, val_main_v45_apply, val_main_v44_apply,
    v34_at x0 x1 x2 x3 x4 x5 x6 x7 x8 x9 x10 x11 x12, v37_at x0 x1 x2 x3 x4 x5 x6 x7 x8 x9 x10 x11 x12, v39_at, v41_at]
  rfl

theorem v53_at (p : Fin 4194304) :
    val_main_v53 (F := Ideal) x0 x1 x2 x3 x4 x5 x6 x7 x8 x9 x10 x11 x12 (ix1 p)
      = out1 (P x1 x2 x3 x4 x5 x6 x7 x8 x9 x10 x11 x12) (rowOf x0 p) := by
  rw [val_main_v53_apply, val_main_v48_apply, val_main_v47_apply, val_main_v52_apply, val_main_v51_apply,
    val_main_v49_apply, val_main_v50_apply,
    v34_at x0 x1 x2 x3 x4 x5 x6 x7 x8 x9 x10 x11 x12, v36_at x0 x1 x2 x3 x4 x5 x6 x7 x8 x9 x10 x11 x12,
    v37_at x0 x1 x2 x3 x4 x5 x6 x7 x8 x9 x10 x11 x12, v39_at, v41_at]
  rfl

/-! ## The result: the two columns side by side -/

/-- The reference's result at `(p, q)` is the row map of row `p` at `q`: column 0 of the concatenation is the first
    piece, column 1 the second. -/
theorem v56_at (p : Fin 4194304) (q : Fin 2) :
    val_main_v56 (F := Ideal) x0 x1 x2 x3 x4 x5 x6 x7 x8 x9 x10 x11 x12 (ix2 p q)
      = outRow (P x1 x2 x3 x4 x5 x6 x7 x8 x9 x10 x11 x12) (rowOf x0 p) q := by
  unfold val_main_v56 outRow
  by_cases hq : q.val = 0
  · rw [if_pos hq]
    refine (concatenate_pair_apply_left (t := S4194304x2) (s₁ := S4194304x1) (s₂ := S4194304x1) (1 : Fin 2) _ _ _ (ix2 p q) rfl
      (ix2 p (0 : Fin 1)) (fun b => by match b with | ⟨0, _⟩ => rfl | ⟨1, _⟩ => exact hq.symm)).trans ?_
    rw [val_main_v54_apply, c54, v46_at]
  · rw [if_neg hq]
    have hq1 : q.val = 1 := by omega
    refine (concatenate_pair_apply_right (t := S4194304x2) (s₁ := S4194304x1) (s₂ := S4194304x1) (1 : Fin 2) _ _ _ (ix2 p q) rfl rfl
      (ix2 p (0 : Fin 1)) (fun b hb => by match b with | ⟨0, _⟩ => rfl | ⟨1, _⟩ => exact absurd rfl hb) (by show 0 + 1 = q.val; omega)).trans ?_
    rw [val_main_v55_apply, c55, v53_at]

/-- The whole result array is the row map of the whole input. -/
theorem v56_eq_result :
    val_main_v56 (F := Ideal) x0 x1 x2 x3 x4 x5 x6 x7 x8 x9 x10 x11 x12
      = result (P x1 x2 x3 x4 x5 x6 x7 x8 x9 x10 x11 x12) x0 := by
  funext i
  rw [eq_ix2 i]
  exact v56_at x0 x1 x2 x3 x4 x5 x6 x7 x8 x9 x10 x11 x12 (i 0) (i 1)

end Cert.ReferenceIdeal.RowRead

end
-- ==== Proof.lean ====
/-
  The kernel and its reference compute the same array over the extended reals.

  Both send every row `(x₀, x₁)` of a 4194304 × 2 input through the same two small tanh perceptrons and form
  `(L Lᵀ)(x₀, x₁)ᵀ` for the lower-triangular `L = [[a, 0], [c, b]]` they produce (Proof/RowMap.lean states this
  row map). The reference does so on whole arrays (Proof/ReferenceRows.lean reads its result one row at a time);
  the kernel does so on 256 blocks of 16384 rows (Proof/KernelRows.lean reads the block's stored value one row at a
  time, Proof/KernelArray.lean puts the blocks together). The two sides apply the same exact operations in the same
  order, so no arithmetic law is used and the finiteness of the inputs is never opened; the one fact about numbers
  is that a matrix product, on either side, is the sum over the contracted coordinate.

  The three frames are the generated ones (the reference's is its generated run with the result dropped), and the
  idealized kernel is the kernel's own text read over the extended reals, so the preservation claim is trivial.
-/
import proofs.«138228_j27066883900008_1_alg».proof.Defs
import proofs.«138228_j27066883900008_1_alg».proof.Proof.Gen.Kernel
import proofs.«138228_j27066883900008_1_alg».proof.Proof.Gen.Kernel.Skeleton
import proofs.«138228_j27066883900008_1_alg».proof.Proof.Gen.Kernel.Launch
import proofs.«138228_j27066883900008_1_alg».proof.Proof.Gen.Kernel.Points
import proofs.«138228_j27066883900008_1_alg».proof.Proof.Gen.Kernel.Frame
import proofs.«138228_j27066883900008_1_alg».proof.Proof.Gen.KernelIdeal
import proofs.«138228_j27066883900008_1_alg».proof.Proof.Gen.KernelIdeal.Skeleton
import proofs.«138228_j27066883900008_1_alg».proof.Proof.Gen.KernelIdeal.Launch
import proofs.«138228_j27066883900008_1_alg».proof.Proof.Gen.KernelIdeal.Points
import proofs.«138228_j27066883900008_1_alg».proof.Proof.Gen.KernelIdeal.Frame
import proofs.«138228_j27066883900008_1_alg».proof.Proof.Gen.ReferenceIdeal
import proofs.«138228_j27066883900008_1_alg».proof.Proof.Gen.Pre_finite_inputs
import proofs.«138228_j27066883900008_1_alg».proof.Proof.Gen.KernelIdeal.Value
import proofs.«138228_j27066883900008_1_alg».proof.Proof.Gen.ReferenceIdeal.Run
import proofs.«138228_j27066883900008_1_alg».proof.Proof.Gen.ReferenceIdeal.Read
import proofs.«138228_j27066883900008_1_alg».proof.Proof.KernelArray
import proofs.«138228_j27066883900008_1_alg».proof.Proof.ReferenceRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the row map of the input in their result array: the kernel's by its blocks, the
    reference's by its operations read at a row; the arguments agree, so the two arrays are one. -/
theorem algebraic : Cert.algebraic_KernelIdeal_ReferenceIdeal := by
  intro m ρ m' ρ' _ hagree
  refine ⟨fun c => Cert.KernelIdeal.RowValue.G m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v56_eq m' c).trans
    (Cert.ReferenceIdeal.RowRead.v56_eq_result _ _ _ _ _ _ _ _ _ _ _ _ _)).trans ?_
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
